-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S100000x64 : Shape := ⟨2, ![100000, 64]⟩
abbrev S10000x128 : Shape := ⟨2, ![10000, 128]⟩
abbrev S10000x64 : Shape := ⟨2, ![10000, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 111
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x64, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1700000, .i32⟩
  | .hbm, ⟨23, _⟩ => ⟨S1700000, .i1⟩
  | .hbm, ⟨24, _⟩ => ⟨S_, .i32⟩
  | .hbm, ⟨25, _⟩ => ⟨S1700000, .i32⟩
  | .hbm, ⟨26, _⟩ => ⟨S1700000, .i32⟩
  | .hbm, ⟨27, _⟩ => ⟨S1700000, .i32⟩
  | .hbm, ⟨28, _⟩ => ⟨S1700000x1, .i32⟩
  | .hbm, ⟨29, _⟩ => ⟨S1700000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x64, .f32⟩
  | .hbm, ⟨49, _⟩ => ⟨S1700000x1, .f32⟩
  | .hbm, ⟨50, _⟩ => ⟨S1700000x64, .f32⟩
  | .hbm, ⟨51, _⟩ => ⟨S1700000x64, .f32⟩
  | .hbm, ⟨52, _⟩ => ⟨S_, .f32⟩
  | .hbm, ⟨53, _⟩ => ⟨S100000x64, .f32⟩
  | .hbm, ⟨54, _⟩ => ⟨S1700000x1, .i32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S100000, .i32⟩
  | .hbm, ⟨64, _⟩ => ⟨S1700000, .i32⟩
  | .hbm, ⟨65, _⟩ => ⟨S1700000, .i32⟩
  | .hbm, ⟨66, _⟩ => ⟨S_, .f32⟩
  | .hbm, ⟨67, _⟩ => ⟨S1700000, .f32⟩
  | .hbm, ⟨68, _⟩ => ⟨S_, .f32⟩
  | .hbm, ⟨69, _⟩ => ⟨S100000, .f32⟩
  | .hbm, ⟨70, _⟩ => ⟨S1700000x1, .i32⟩
  | .hbm, ⟨71, _⟩ => ⟨S100000, .f32⟩
  | .hbm, ⟨72, _⟩ => ⟨S100000, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1700000, .f32⟩
  | .hbm, ⟨91, _⟩ => ⟨S1700000, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000x64, .f32⟩
  | .hbm, ⟨101, _⟩ => ⟨S1700000x1, .f32⟩
  | .hbm, ⟨102, _⟩ => ⟨S1700000x64, .f32⟩
  | .hbm, ⟨103, _⟩ => ⟨S1700000x64, .f32⟩
  | .hbm, ⟨104, _⟩ => ⟨S_, .f32⟩
  | .hbm, ⟨105, _⟩ => ⟨S100000x64, .f32⟩
  | .hbm, ⟨106, _⟩ => ⟨S1700000x1, .i32⟩
  | .hbm, ⟨107, _⟩ => ⟨S100000x64, .f32⟩
  | .hbm, ⟨108, _⟩ => ⟨S1x64, .f32⟩
  | .hbm, ⟨109, _⟩ => ⟨S100000x64, .f32⟩
  | .hbm, ⟨110, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x64, .f32⟩
  | .local _ .vmem, ⟨8, _⟩ => ⟨S10000x64, .f32⟩
  | .local _ .vmem, ⟨9, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_7 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_9 : Ref sig .tc := ⟨.hbm, 73, rfl⟩
abbrev main_v54 : Ref sig .tc := ⟨.hbm, 74, rfl⟩
abbrev main_v55 : Ref sig .tc := ⟨.hbm, 75, rfl⟩
abbrev main_c_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_13 : Ref sig .tc := ⟨.hbm, 92, rfl⟩
abbrev main_v69 : Ref sig .tc := ⟨.hbm, 93, rfl⟩
abbrev main_v70 : Ref sig .tc := ⟨.hbm, 94, rfl⟩
abbrev main_c_14 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_15 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  dot_S10000x128_S128x64_S10000x64_1_0_0_1_n_n_wf : DotDims.WF S10000x128 S128x64 S10000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S100000x64 : Shape := ⟨2, ![100000, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 111
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x64, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1700000, .i32⟩
  | .hbm, ⟨23, _⟩ => ⟨S1700000, .i1⟩
  | .hbm, ⟨24, _⟩ => ⟨S_, .i32⟩
  | .hbm, ⟨25, _⟩ => ⟨S1700000, .i32⟩
  | .hbm, ⟨26, _⟩ => ⟨S1700000, .i32⟩
  | .hbm, ⟨27, _⟩ => ⟨S1700000, .i32⟩
  | .hbm, ⟨28, _⟩ => ⟨S1700000x1, .i32⟩
  | .hbm, ⟨29, _⟩ => ⟨S1700000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x64, .f32⟩
  | .hbm, ⟨49, _⟩ => ⟨S1700000x1, .f32⟩
  | .hbm, ⟨50, _⟩ => ⟨S1700000x64, .f32⟩
  | .hbm, ⟨51, _⟩ => ⟨S1700000x64, .f32⟩
  | .hbm, ⟨52, _⟩ => ⟨S_, .f32⟩
  | .hbm, ⟨53, _⟩ => ⟨S100000x64, .f32⟩
  | .hbm, ⟨54, _⟩ => ⟨S1700000x1, .i32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S100000, .i32⟩
  | .hbm, ⟨64, _⟩ => ⟨S1700000, .i32⟩
  | .hbm, ⟨65, _⟩ => ⟨S1700000, .i32⟩
  | .hbm, ⟨66, _⟩ => ⟨S_, .f32⟩
  | .hbm, ⟨67, _⟩ => ⟨S1700000, .f32⟩
  | .hbm, ⟨68, _⟩ => ⟨S_, .f32⟩
  | .hbm, ⟨69, _⟩ => ⟨S100000, .f32⟩
  | .hbm, ⟨70, _⟩ => ⟨S1700000x1, .i32⟩
  | .hbm, ⟨71, _⟩ => ⟨S100000, .f32⟩
  | .hbm, ⟨72, _⟩ => ⟨S100000, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1700000, .f32⟩
  | .hbm, ⟨91, _⟩ => ⟨S1700000, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000x64, .f32⟩
  | .hbm, ⟨101, _⟩ => ⟨S1700000x1, .f32⟩
  | .hbm, ⟨102, _⟩ => ⟨S1700000x64, .f32⟩
  | .hbm, ⟨103, _⟩ => ⟨S1700000x64, .f32⟩
  | .hbm, ⟨104, _⟩ => ⟨S_, .f32⟩
  | .hbm, ⟨105, _⟩ => ⟨S100000x64, .f32⟩
  | .hbm, ⟨106, _⟩ => ⟨S1700000x1, .i32⟩
  | .hbm, ⟨107, _⟩ => ⟨S100000x64, .f32⟩
  | .hbm, ⟨108, _⟩ => ⟨S1x64, .f32⟩
  | .hbm, ⟨109, _⟩ => ⟨S100000x64, .f32⟩
  | .hbm, ⟨110, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_7 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_9 : Ref sig .tc := ⟨.hbm, 73, rfl⟩
abbrev main_v54 : Ref sig .tc := ⟨.hbm, 74, rfl⟩
abbrev main_v55 : Ref sig .tc := ⟨.hbm, 75, rfl⟩
abbrev main_c_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_13 : Ref sig .tc := ⟨.hbm, 92, rfl⟩
abbrev main_v69 : Ref sig .tc := ⟨.hbm, 93, rfl⟩
abbrev main_v70 : Ref sig .tc := ⟨.hbm, 94, rfl⟩
abbrev main_c_14 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_15 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  The graph-convolution network both programs compute, as one function of the argument arrays.

  A layer takes node features `h` (100000 × 64, already multiplied by the layer's weight), the edge
  list as two vectors `src`, `dst` of 1600000 node numbers, and a bias `b`.  Self loops are appended
  (`withLoops`: the vector followed by 0, 1, …, 99999), a node's degree is the number of extended
  edges that END at it (a scatter-add of ones at `dst`), `dis = deg^(-1/2)`, an edge's weight is
  `dis[src] · dis[dst]`, and the layer's result at node `n` is the sum over the extended edges ending
  at `n` of `weight · h[src]`, plus `b`.  A negative node number is first moved up by 100000
  (`wrapIdx`), as jnp's indexing does.  The network is two layers with a rectifier in between:

      gcn x e W1 b1 W2 b2 = layer ((relu (layer (x · W1) e b1)) · W2) e b2

  where `·` is the matrix product, `dense1` (contraction length 128) and `dense2` (length 64): at the
  ideal values, entry (r, c) is the sum over k of x[r, k] · W[k, c] in the extended reals.
-/
import proofs.«150380_j34067680592104_1_alg».proof.Proof.Gen.KernelIdeal
import Idealize.ShloMosaic.Lib.ValueIdx
import Idealize.ShloMosaic.PureOps.Ideal.Laws

noncomputable section

namespace Cert.Gcn

open Cert.KernelIdeal Cert.KernelIdeal.Gen Idealize.ShloMosaic Idealize.ShloMosaic.TcCoe Idealize.SL.Sem

variable {F : FTy → Type} [FloatOps F]

/-- Row 0 of the edge list: the edges' source nodes. -/
def srcOf (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- Row 1 of the edge list: the edges' destination nodes. -/
def dstOf (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- The edge endpoints followed by one self loop per node. -/
def withLoops (v : (⟨S1600000, .i32⟩ : BufTy).Contents (Elt F)) : (⟨S1700000, .i32⟩ : BufTy).Contents (Elt F) :=
  concatenate S1700000 0 [⟨S1600000, v⟩, ⟨S100000, (iotaInDim S100000 32 0)⟩] concatenates_S1600000_S100000_S1700000_d0

/-- Node numbers as a column of index vectors, a negative one moved up by the node count. -/
def wrapIdx (v : (⟨S1700000, .i32⟩ : BufTy).Contents (Elt F)) : (⟨S1700000x1, .i32⟩ : BufTy).Contents (Elt F) :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- `deg^(-1/2)`, the degree counting the extended edges that end at the node. -/
def invSqrtDeg (d : (⟨S1700000, .i32⟩ : BufTy).Contents (Elt F)) : (⟨S100000, .f32⟩ : BufTy).Contents (Elt F) :=
  Host.rsqrt (Host.scatterAdd scatter_S100000_S1700000x1_S1700000_n_0_0_1
    (broadcastInDim S100000 ![] bcast_S_S100000 (constant (F := F) S_ .f32 0x00000000#32))
    (broadcastInDim S1700000x1 ![0] bcast_S1700000_S1700000x1_0 d)
    (broadcastInDim S1700000 ![] bcast_S_S1700000 (constant (F := F) S_ .f32 0x3F800000#32)))

/-- An extended edge's weight `dis[src] · dis[dst]`. -/
def edgeWeight (s d : (⟨S1700000, .i32⟩ : BufTy).Contents (Elt F)) : (⟨S1700000, .f32⟩ : BufTy).Contents (Elt F) :=
  mulf (Host.gather gather_S100000_S1700000x1_S1700000_n_0_n_n_0_1_1 (invSqrtDeg d) (wrapIdx s))
    (Host.gather gather_S100000_S1700000x1_S1700000_n_0_n_n_0_1_1 (invSqrtDeg d) (wrapIdx d))

/-- One layer after its matrix product: gather the source rows, weigh them, add them up at the destinations, add the bias. -/
def layer (h : (⟨S100000x64, .f32⟩ : BufTy).Contents (Elt F)) (src dst : (⟨S1600000, .i32⟩ : BufTy).Contents (Elt F))
    (b : (⟨S64, .f32⟩ : BufTy).Contents (Elt F)) : (⟨S100000x64, .f32⟩ : BufTy).Contents (Elt F) :=
  addf (Host.scatterAdd scatter_S100000x64_S1700000x1_S1700000x64_1_0_0_1
      (broadcastInDim S100000x64 ![] bcast_S_S100000x64 (constant (F := F) S_ .f32 0x00000000#32))
      (broadcastInDim S1700000x1 ![0] bcast_S1700000_S1700000x1_0 (withLoops dst))
      (mulf (Host.gather gather_S100000x64_S1700000x1_S1700000x64_1_0_n_n_0_1_164 h (wrapIdx (withLoops src)))
        (broadcastInDim S1700000x64 ![0, 1] bcast_S1700000x1_S1700000x64_0_1
          (broadcastInDim S1700000x1 ![0] bcast_S1700000_S1700000x1_0 (edgeWeight (withLoops src) (withLoops dst))))))
    (broadcastInDim S100000x64 ![0, 1] bcast_S1x64_S100000x64_0_1 (broadcastInDim S1x64 ![1] bcast_S64_S1x64_1 b))

/-- The rectifier between the layers: the maximum with zero. -/
def relu (h : (⟨S100000x64, .f32⟩ : BufTy).Contents (Elt F)) : (⟨S100000x64, .f32⟩ : BufTy).Contents (Elt F) :=
  maximumf h (broadcastInDim S100000x64 ![] bcast_S_S100000x64 (constant (F := F) S_ .f32 0x00000000#32))

/-- Entry (r, k) of the left factor and entry (k, c) of the right one, for the output entry `i = (r, c)`. -/
abbrev lrow1 (i : S100000x64.Idx) (k : Fin 128) : S100000x128.Idx := fun a => match a with
  | ⟨0, _⟩ => ⟨(i 0).val, (i 0).isLt⟩
  | ⟨1, _⟩ => ⟨k.val, k.isLt⟩
abbrev rcol1 (i : S100000x64.Idx) (k : Fin 128) : S128x64.Idx := fun a => match a with
  | ⟨0, _⟩ => ⟨k.val, k.isLt⟩
  | ⟨1, _⟩ => ⟨(i 1).val, (i 1).isLt⟩
abbrev lrow2 (i : S100000x64.Idx) (k : Fin 64) : S100000x64.Idx := fun a => match a with
  | ⟨0, _⟩ => ⟨(i 0).val, (i 0).isLt⟩
  | ⟨1, _⟩ => ⟨k.val, k.isLt⟩
abbrev rcol2 (i : S100000x64.Idx) (k : Fin 64) : S64x64.Idx := fun a => match a with
  | ⟨0, _⟩ => ⟨k.val, k.isLt⟩
  | ⟨1, _⟩ => ⟨(i 1).val, (i 1).isLt⟩

/-- The first layer's matrix product at the ideal values: 100000 × 128 times 128 × 64. -/
def dense1 (x : (⟨S100000x128, .f32⟩ : BufTy).Contents (Elt Ideal)) (w : (⟨S128x64, .f32⟩ : BufTy).Contents (Elt Ideal)) :
    (⟨S100000x64, .f32⟩ : BufTy).Contents (Elt Ideal) :=
  fun i => ∑ k : Fin 128, x (lrow1 i k) * w (rcol1 i k)

/-- The second layer's matrix product at the ideal values: 100000 × 64 times 64 × 64. -/
def dense2 (x : (⟨S100000x64, .f32⟩ : BufTy).Contents (Elt Ideal)) (w : (⟨S64x64, .f32⟩ : BufTy).Contents (Elt Ideal)) :
    (⟨S100000x64, .f32⟩ : BufTy).Contents (Elt Ideal) :=
  fun i => ∑ k : Fin 64, x (lrow2 i k) * w (rcol2 i k)

/-- The two-layer network of the argument arrays. -/
def gcn (x : (⟨S100000x128, .f32⟩ : BufTy).Contents (Elt Ideal)) (e : (⟨S2x1600000, .i32⟩ : BufTy).Contents (Elt Ideal))
    (w1 : (⟨S128x64, .f32⟩ : BufTy).Contents (Elt Ideal)) (b1 : (⟨S64, .f32⟩ : BufTy).Contents (Elt Ideal))
    (w2 : (⟨S64x64, .f32⟩ : BufTy).Contents (Elt Ideal)) (b2 : (⟨S64, .f32⟩ : BufTy).Contents (Elt Ideal)) :
    (⟨S100000x64, .f32⟩ : BufTy).Contents (Elt Ideal) :=
  layer (dense2 (relu (layer (dense1 x w1) (srcOf e) (dstOf e) b1)) w2) (srcOf e) (dstOf e) b2

end Cert.Gcn

end
-- ==== Proof.Region0.lean ====
/-
  Region 0 (the first matrix product).  Each grid point `t` loads rows 10000·t … 10000·t + 9999 of the left
  factor and the whole right factor, and stores their product into the same rows of the result.  Read at an
  entry, the block product is the sum over the contraction index of left[r, k] · right[k, c] (the change of
  float format is the identity at the ideal values and the accumulator starts at zero), so point `t` writes
  back block `t` of `dense1`; the ten blocks tile the 100000 rows, so the result array ends holding `dense1`
  of the two arrays the region found.
-/
import proofs.«150380_j34067680592104_1_alg».proof.Proof.Gen.KernelIdeal.Frame
import proofs.«150380_j34067680592104_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.Gcn.Region0

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The block product at an entry -/

theorem lhs_0 (j : S10000x64.Idx) (q : dot_S10000x128_S128x64_S10000x64_1_0_0_1_n_n.contr.Idx) :
    (dot_S10000x128_S128x64_S10000x64_1_0_0_1_n_n.lhsIdx j q 0).val = (j 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_1 (j : S10000x64.Idx) (q : dot_S10000x128_S128x64_S10000x64_1_0_0_1_n_n.contr.Idx) :
    (dot_S10000x128_S128x64_S10000x64_1_0_0_1_n_n.lhsIdx j q 1).val = (q ⟨0, by decide⟩).val :=
  dot_S10000x128_S128x64_S10000x64_1_0_0_1_n_n.lhsIdx_val_of_single rfl j q
theorem rhs_0 (j : S10000x64.Idx) (q : dot_S10000x128_S128x64_S10000x64_1_0_0_1_n_n.contr.Idx) :
    (dot_S10000x128_S128x64_S10000x64_1_0_0_1_n_n.rhsIdx j q 0).val = (q ⟨0, by decide⟩).val :=
  dot_S10000x128_S128x64_S10000x64_1_0_0_1_n_n.rhsIdx_val_of_single rfl j q
theorem rhs_1 (j : S10000x64.Idx) (q : dot_S10000x128_S128x64_S10000x64_1_0_0_1_n_n.contr.Idx) :
    (dot_S10000x128_S128x64_S10000x64_1_0_0_1_n_n.rhsIdx j q 1).val = (j 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- Entry (r, k) of the left block and (k, c) of the right factor, for the block's output entry `j = (r, c)`. -/
abbrev blkL (j : S10000x64.Idx) (k : Fin 128) : S10000x128.Idx := fun a => match a with
  | ⟨0, _⟩ => ⟨(j 0).val, (j 0).isLt⟩
  | ⟨1, _⟩ => ⟨k.val, k.isLt⟩
abbrev blkR (j : S10000x64.Idx) (k : Fin 128) : S128x64.Idx := fun a => match a with
  | ⟨0, _⟩ => ⟨k.val, k.isLt⟩
  | ⟨1, _⟩ => ⟨(j 1).val, (j 1).isLt⟩

/-- The body's stored value at an entry: the sum of products along the contraction axis. -/
theorem pay_apply (x0 : Vec Ideal S10000x128 .f32) (x1 : Vec Ideal S128x64 .f32) (j : S10000x64.Idx) :
    k0_pay1 (F := Ideal) x0 x1 j = ∑ k : Fin 128, x0 (blkL j k) * x1 (blkR j k) := by
  unfold k0_pay1
  simp only [matmul]
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx j ((ValueIdx.contrEquiv1 dot_S10000x128_S128x64_S10000x64_1_0_0_1_n_n 128 rfl rfl).symm k) = blkL j k := funext fun a => Fin.ext (by
    match a with
    | ⟨0, _⟩ => exact lhs_0 _ _
    | ⟨1, _⟩ => exact (lhs_1 _ _).trans hk)
  have er : dot_S10000x128_S128x64_S10000x64_1_0_0_1_n_n.rhsIdx j ((ValueIdx.contrEquiv1 dot_S10000x128_S128x64_S10000x64_1_0_0_1_n_n 128 rfl rfl).symm k) = blkR j k := funext fun a => Fin.ext (by
    match a with
    | ⟨0, _⟩ => exact (rhs_0 _ _).trans hk
    | ⟨1, _⟩ => exact rhs_1 _ _)
  rw [el, er]
  rfl

/-! ## What each point writes back, and the whole result -/

/-- The printed index maps over the grid: the left factor's block and the result's block are both block `t` of
    the rows and block 0 of the columns; the right factor is one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left factor's block at point `t` is rows 10000·t … of the array, all 128 columns. -/
theorem read_left (c : Dev nD) (t : Fin cfg0.N) (y : S10000x128.Idx) (i : S100000x128.Idx)
    (h0 : (i 0).val = t.val * 10000 + (y 0).val) (h1 : (i 1).val = (y 1).val) :
    (iblk0 V c 0 t : Vec Ideal S10000x128 .f32) y = (V c main_arg0 : S100000x128.Idx → Elt Ideal .f32) i := by
  obtain ⟨e0, e1, -, -, -, -⟩ := idx_facts t
  unfold iblk0
  rw [View.read_apply]
  show V c main_arg0 _ = V c main_arg0 _
  congr 1
  funext a; apply Fin.ext
  match a with
  | ⟨0, _⟩ => show win0_0.index t (0 : Fin 2) * 10000 + 1 * (y 0).val = (i 0).val; rw [e0, h0]; omega
  | ⟨1, _⟩ => show win0_0.index t (1 : Fin 2) * 128 + 1 * (y 1).val = (i 1).val; rw [e1, h1]; omega

/-- The right factor's block at every point is the whole array. -/
theorem read_right (c : Dev nD) (t : Fin cfg0.N) (y : S128x64.Idx) (i : S128x64.Idx)
    (h0 : (i 0).val = (y 0).val) (h1 : (i 1).val = (y 1).val) :
    (iblk0 V c 1 t : Vec Ideal S128x64 .f32) y = (V c main_arg2 : S128x64.Idx → Elt Ideal .f32) i := by
  obtain ⟨-, -, e2, e3, -, -⟩ := idx_facts t
  unfold iblk0
  rw [View.read_apply]
  show V c main_arg2 _ = V c main_arg2 _
  congr 1
  funext a; apply Fin.ext
  match a with
  | ⟨0, _⟩ => show win0_1.index t (0 : Fin 2) * 128 + 1 * (y 0).val = (i 0).val; rw [e2, h0]; omega
  | ⟨1, _⟩ => show win0_1.index t (1 : Fin 2) * 64 + 1 * (y 1).val = (i 1).val; rw [e3, h1]; omega

/-- Point `t` writes back block `t` of the product of the two arrays the region found. -/
theorem flushed_eq (c : Dev nD) (t : Fin cfg0.N) :
    (dat0 V c).flushed 2 t = ((cfg0.win 2).blk t).view.read (Elt Ideal) (Cert.Gcn.dense1 (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  obtain ⟨-, -, -, -, e4, e5⟩ := idx_facts t
  funext j
  show k0_pay1 (F := Ideal) (iblk0 V c 0 t) (iblk0 V c 1 t) j
    = Cert.Gcn.dense1 (V c main_arg0) (V c main_arg2) (((cfg0.win 2).blk t).view.emb j)
  refine (pay_apply (iblk0 V c 0 t) (iblk0 V c 1 t) j).trans ?_
  unfold Cert.Gcn.dense1
  refine Finset.sum_congr rfl fun k _ => ?_
  have hL := read_left V c t (blkL j k) (Cert.Gcn.lrow1 (((cfg0.win 2).blk t).view.emb j) k)
    (by show win0_2.index t (0 : Fin 2) * 10000 + 1 * (j 0).val = t.val * 10000 + (j 0).val; rw [e4]; omega) rfl
  have hR := read_right V c t (blkR j k) (Cert.Gcn.rcol1 (((cfg0.win 2).blk t).view.emb j) k)
    rfl (by show win0_2.index t (1 : Fin 2) * 64 + 1 * (j 1).val = (j 1).val; rw [e5]; omega)
  rw [hL, hR]

/-- An index of the result is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v4).slice (win0_2.rect t)).set ↔ _
  rw [View.set_slice_whole, Rect.mem_set_unit]
  exact Iff.rfl

/-- Every row r of the result is written back: by point r / 10000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by omega⟩, rfl⟩
  obtain ⟨-, -, -, -, e4, e5⟩ := idx_facts t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; rw [e4, ht]; omega
  | ⟨1, _⟩ => show win0_2.index t (1 : Fin 2) * 64 ≤ (i 1).val ∧ (i 1).val < win0_2.index t (1 : Fin 2) * 64 + 64; rw [e5]; omega

/-- The result array after the region: the product of the two arrays the region found. -/
theorem final (c : Dev nD) : (dat0 V c).arrAt 2 cfg0.N = Cert.Gcn.dense1 (V c main_arg0) (V c main_arg2) :=
  (dat0 V c).arrAt_eq_of_cover 2 (Cert.Gcn.dense1 (V c main_arg0) (V c main_arg2)) (fun t _ => flushed_eq V c t) cover

end Cert.Gcn.Region0

end
-- ==== Proof.Region1.lean ====
/-
  Region 1 (the second matrix product).  Each grid point `t` loads rows 10000·t … 10000·t + 9999 of the rectified
  first layer and the whole 64 × 64 weight, and stores their product into the same rows of the result.  The block
  product read at an entry is the sum over the 64 contraction indices of left[r, k] · right[k, c] (the shape cast
  to the same shape and the change of float format are the identity at the ideal values, the accumulator starts
  at zero), so point `t` writes back block `t` of `dense2` and the ten blocks tile the result.
-/
import proofs.«150380_j34067680592104_1_alg».proof.Proof.Gen.KernelIdeal.Frame
import proofs.«150380_j34067680592104_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.Gcn.Region1

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The block product at an entry -/

theorem lhs_0 (j : S10000x64.Idx) (q : dot_S10000x64_S64x64_S10000x64_1_0_0_1_n_n.contr.Idx) :
    (dot_S10000x64_S64x64_S10000x64_1_0_0_1_n_n.lhsIdx j q 0).val = (j 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_1 (j : S10000x64.Idx) (q : dot_S10000x64_S64x64_S10000x64_1_0_0_1_n_n.contr.Idx) :
    (dot_S10000x64_S64x64_S10000x64_1_0_0_1_n_n.lhsIdx j q 1).val = (q ⟨0, by decide⟩).val :=
  dot_S10000x64_S64x64_S10000x64_1_0_0_1_n_n.lhsIdx_val_of_single rfl j q
theorem rhs_0 (j : S10000x64.Idx) (q : dot_S10000x64_S64x64_S10000x64_1_0_0_1_n_n.contr.Idx) :
    (dot_S10000x64_S64x64_S10000x64_1_0_0_1_n_n.rhsIdx j q 0).val = (q ⟨0, by decide⟩).val :=
  dot_S10000x64_S64x64_S10000x64_1_0_0_1_n_n.rhsIdx_val_of_single rfl j q
theorem rhs_1 (j : S10000x64.Idx) (q : dot_S10000x64_S64x64_S10000x64_1_0_0_1_n_n.contr.Idx) :
    (dot_S10000x64_S64x64_S10000x64_1_0_0_1_n_n.rhsIdx j q 1).val = (j 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Entry (r, k) of the left block and (k, c) of the right factor, for the block's output entry `j = (r, c)`. -/
abbrev blkL (j : S10000x64.Idx) (k : Fin 64) : S10000x64.Idx := fun a => match a with
  | ⟨0, _⟩ => ⟨(j 0).val, (j 0).isLt⟩
  | ⟨1, _⟩ => ⟨k.val, k.isLt⟩
abbrev blkR (j : S10000x64.Idx) (k : Fin 64) : S64x64.Idx := fun a => match a with
  | ⟨0, _⟩ => ⟨k.val, k.isLt⟩
  | ⟨1, _⟩ => ⟨(j 1).val, (j 1).isLt⟩

/-- The body's stored value at an entry: the sum of products along the contraction axis. -/
theorem pay_apply (x0 : Vec Ideal S10000x64 .f32) (x1 : Vec Ideal S64x64 .f32) (j : S10000x64.Idx) :
    k1_pay1 (F := Ideal) x0 x1 j = ∑ k : Fin 64, x0 (blkL j k) * x1 (blkR j k) := by
  unfold k1_pay1
  simp only [matmul, shapeCast_self]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx j ((ValueIdx.contrEquiv1 dot_S10000x64_S64x64_S10000x64_1_0_0_1_n_n 64 rfl rfl).symm k) = blkL j k := funext fun a => Fin.ext (by
    match a with
    | ⟨0, _⟩ => exact lhs_0 _ _
    | ⟨1, _⟩ => exact (lhs_1 _ _).trans hk)
  have er : dot_S10000x64_S64x64_S10000x64_1_0_0_1_n_n.rhsIdx j ((ValueIdx.contrEquiv1 dot_S10000x64_S64x64_S10000x64_1_0_0_1_n_n 64 rfl rfl).symm k) = blkR j k := funext fun a => Fin.ext (by
    match a with
    | ⟨0, _⟩ => exact (rhs_0 _ _).trans hk
    | ⟨1, _⟩ => exact rhs_1 _ _)
  rw [el, er]
  rfl

/-! ## What each point writes back, and the whole result -/

/-- The printed index maps over the grid: the left factor's block and the result's block are both block `t` of
    the rows and block 0 of the columns; the right factor is one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left factor's block at point `t` is rows 10000·t … of the array, all 64 columns. -/
theorem read_left (c : Dev nD) (t : Fin cfg1.N) (y : S10000x64.Idx) (i : S100000x64.Idx)
    (h0 : (i 0).val = t.val * 10000 + (y 0).val) (h1 : (i 1).val = (y 1).val) :
    (iblk1 V c 0 t : Vec Ideal S10000x64 .f32) y = (V c main_v44 : S100000x64.Idx → Elt Ideal .f32) i := by
  obtain ⟨e0, e1, -, -, -, -⟩ := idx_facts t
  unfold iblk1
  rw [View.read_apply]
  show V c main_v44 _ = V c main_v44 _
  congr 1
  funext a; apply Fin.ext
  match a with
  | ⟨0, _⟩ => show win1_0.index t (0 : Fin 2) * 10000 + 1 * (y 0).val = (i 0).val; rw [e0, h0]; omega
  | ⟨1, _⟩ => show win1_0.index t (1 : Fin 2) * 64 + 1 * (y 1).val = (i 1).val; rw [e1, h1]; omega

/-- The right factor's block at every point is the whole array. -/
theorem read_right (c : Dev nD) (t : Fin cfg1.N) (y : S64x64.Idx) (i : S64x64.Idx)
    (h0 : (i 0).val = (y 0).val) (h1 : (i 1).val = (y 1).val) :
    (iblk1 V c 1 t : Vec Ideal S64x64 .f32) y = (V c main_arg4 : S64x64.Idx → Elt Ideal .f32) i := by
  obtain ⟨-, -, e2, e3, -, -⟩ := idx_facts t
  unfold iblk1
  rw [View.read_apply]
  show V c main_arg4 _ = V c main_arg4 _
  congr 1
  funext a; apply Fin.ext
  match a with
  | ⟨0, _⟩ => show win1_1.index t (0 : Fin 2) * 64 + 1 * (y 0).val = (i 0).val; rw [e2, h0]; omega
  | ⟨1, _⟩ => show win1_1.index t (1 : Fin 2) * 64 + 1 * (y 1).val = (i 1).val; rw [e3, h1]; omega

/-- Point `t` writes back block `t` of the product of the two arrays the region found. -/
theorem flushed_eq (c : Dev nD) (t : Fin cfg1.N) :
    (dat1 V c).flushed 2 t = ((cfg1.win 2).blk t).view.read (Elt Ideal) (Cert.Gcn.dense2 (V c main_v44) (V c main_arg4)) := by
  show (cfg1.win 2).cut (grid1.coords t) ((dat1 V c).after 2 t) = _
  rw [after1_2]
  unfold out1_2
  rw [View.canon_unit_zero hz]
  simp only [View.ld_unit_zero (S := S10000x64) hz, View.ld_unit_zero (S := S64x64) hz]
  obtain ⟨-, -, -, -, e4, e5⟩ := idx_facts t
  funext j
  show k1_pay1 (F := Ideal) (iblk1 V c 0 t) (iblk1 V c 1 t) j
    = Cert.Gcn.dense2 (V c main_v44) (V c main_arg4) (((cfg1.win 2).blk t).view.emb j)
  refine (pay_apply (iblk1 V c 0 t) (iblk1 V c 1 t) j).trans ?_
  unfold Cert.Gcn.dense2
  refine Finset.sum_congr rfl fun k _ => ?_
  have hL := read_left V c t (blkL j k) (Cert.Gcn.lrow2 (((cfg1.win 2).blk t).view.emb j) k)
    (by show win1_2.index t (0 : Fin 2) * 10000 + 1 * (j 0).val = t.val * 10000 + (j 0).val; rw [e4]; omega) rfl
  have hR := read_right V c t (blkR j k) (Cert.Gcn.rcol2 (((cfg1.win 2).blk t).view.emb j) k)
    rfl (by show win1_2.index t (1 : Fin 2) * 64 + 1 * (j 1).val = (j 1).val; rw [e5]; omega)
  rw [hL, hR]

/-- An index of the result is in point `t`'s block iff each coordinate is in the block's range on its axis. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v45).slice (win1_2.rect t)).set ↔ _
  rw [View.set_slice_whole, Rect.mem_set_unit]
  exact Iff.rfl

/-- Every row r of the result is written back: by point r / 10000. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  obtain ⟨t, ht⟩ : ∃ t : Fin cfg1.N, t.val = (i 0).val / 10000 := ⟨⟨(i 0).val / 10000, by omega⟩, rfl⟩
  obtain ⟨-, -, -, -, e4, e5⟩ := idx_facts t
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; rw [e4, ht]; omega
  | ⟨1, _⟩ => show win1_2.index t (1 : Fin 2) * 64 ≤ (i 1).val ∧ (i 1).val < win1_2.index t (1 : Fin 2) * 64 + 64; rw [e5]; omega

/-- The result array after the region: the product of the two arrays the region found. -/
theorem final (c : Dev nD) : (dat1 V c).arrAt 2 cfg1.N = Cert.Gcn.dense2 (V c main_v44) (V c main_arg4) :=
  (dat1 V c).arrAt_eq_of_cover 2 (Cert.Gcn.dense2 (V c main_v44) (V c main_arg4)) (fun t _ => flushed_eq V c t) cover

end Cert.Gcn.Region1

end
-- ==== Proof.KernelValue.lean ====
/-
  The result buffer of the idealized kernel program after its run, as a function of the argument arrays.

  The program is six segments: four host operations (the edge list's two rows), the first matrix product as a
  pipelined region, forty-eight host operations (one layer's aggregation) and the rectifier's three, the second
  matrix product as a region, and forty-eight host operations again.  Each host stretch is read as the network's
  own functions of the buffers it starts from (`layer`, `relu`, `srcOf`, `dstOf`), each region leaves the matrix
  product of the two arrays it found in its result array and every other buffer as it was, and a buffer that a
  stretch does not write keeps its contents.  Walking the six segments back from the result buffer to the launch
  memory gives `gcn` of the arguments.
-/
import proofs.«150380_j34067680592104_1_alg».proof.Proof.Gen.KernelIdeal.Frame
import proofs.«150380_j34067680592104_1_alg».proof.Proof.Spec
import proofs.«150380_j34067680592104_1_alg».proof.Proof.Region0
import proofs.«150380_j34067680592104_1_alg».proof.Proof.Region1
import Idealize.ShloMosaic.Lib.StableHlo.Run

set_option maxRecDepth 16384

noncomputable section

namespace Cert.Gcn.Fold

open Cert.KernelIdeal Cert.KernelIdeal.Gen Idealize.ShloMosaic Idealize.ShloMosaic.TcCoe Idealize.SL.Sem
open Idealize.ShloMosaic.StableHlo (after)

/-- A buffer none of the listed host operations writes keeps its contents. -/
local macro "not_written" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## The host stretches, from any contents `X` -/

section Stretches

variable (X : Valuation τ sig (Elt Ideal))

/-- The first stretch leaves the edges' sources in `main_v1` … -/
theorem seg0_src : after hostOps0 X (Proc.devRef .tc main_v1) = Cert.Gcn.srcOf (X (Proc.devRef .tc main_arg1)) := by
  after_results
  rfl
/-- … and their destinations in `main_v3`. -/
theorem seg0_dst : after hostOps0 X (Proc.devRef .tc main_v3) = Cert.Gcn.dstOf (X (Proc.devRef .tc main_arg1)) := by
  after_results
  rfl
theorem seg0_arg0 : after hostOps0 X (Proc.devRef .tc main_arg0) = X (Proc.devRef .tc main_arg0) := by not_written hostOps0
theorem seg0_arg2 : after hostOps0 X (Proc.devRef .tc main_arg2) = X (Proc.devRef .tc main_arg2) := by not_written hostOps0
theorem seg0_arg3 : after hostOps0 X (Proc.devRef .tc main_arg3) = X (Proc.devRef .tc main_arg3) := by not_written hostOps0
theorem seg0_arg4 : after hostOps0 X (Proc.devRef .tc main_arg4) = X (Proc.devRef .tc main_arg4) := by not_written hostOps0
theorem seg0_arg5 : after hostOps0 X (Proc.devRef .tc main_arg5) = X (Proc.devRef .tc main_arg5) := by not_written hostOps0

/-- The second stretch is one layer's aggregation of the first product. -/
theorem seg1_layer : after hostOps1 X (Proc.devRef .tc main_v43)
    = Cert.Gcn.layer (X (Proc.devRef .tc main_v4)) (X (Proc.devRef .tc main_v1)) (X (Proc.devRef .tc main_v3)) (X (Proc.devRef .tc main_arg3)) := by
  after_results_simp
  rfl
theorem seg1_v1 : after hostOps1 X (Proc.devRef .tc main_v1) = X (Proc.devRef .tc main_v1) := by not_written hostOps1
theorem seg1_v3 : after hostOps1 X (Proc.devRef .tc main_v3) = X (Proc.devRef .tc main_v3) := by not_written hostOps1
theorem seg1_arg4 : after hostOps1 X (Proc.devRef .tc main_arg4) = X (Proc.devRef .tc main_arg4) := by not_written hostOps1
theorem seg1_arg5 : after hostOps1 X (Proc.devRef .tc main_arg5) = X (Proc.devRef .tc main_arg5) := by not_written hostOps1

/-- The rectifier. -/
theorem seg11_relu : after hostOps1_1 X (Proc.devRef .tc main_v44) = Cert.Gcn.relu (X (Proc.devRef .tc main_v43)) := by
  after_results
  rfl
theorem seg11_v1 : after hostOps1_1 X (Proc.devRef .tc main_v1) = X (Proc.devRef .tc main_v1) := by not_written hostOps1_1
theorem seg11_v3 : after hostOps1_1 X (Proc.devRef .tc main_v3) = X (Proc.devRef .tc main_v3) := by not_written hostOps1_1
theorem seg11_arg4 : after hostOps1_1 X (Proc.devRef .tc main_arg4) = X (Proc.devRef .tc main_arg4) := by not_written hostOps1_1
theorem seg11_arg5 : after hostOps1_1 X (Proc.devRef .tc main_arg5) = X (Proc.devRef .tc main_arg5) := by not_written hostOps1_1

/-- The last stretch is one layer's aggregation of the second product. -/
theorem seg2_layer : after hostOps2 X (Proc.devRef .tc main_v84)
    = Cert.Gcn.layer (X (Proc.devRef .tc main_v45)) (X (Proc.devRef .tc main_v1)) (X (Proc.devRef .tc main_v3)) (X (Proc.devRef .tc main_arg5)) := by
  after_results_simp
  rfl

end Stretches

/-! ## The walk -/

variable (m : (ℓ : Loc nD τ sig) → Buf (Elt Ideal) ℓ) (ρ : Dev nD → PrngReg)

/-- At the first region's entry: the arguments as launched, the edge list's rows in place. -/
theorem W1_arg0 (c : Dev nD) : W1 m ρ c (Proc.devRef .tc main_arg0) = m ((c : Thread nD τ).loc main_arg0) := seg0_arg0 (W0 m ρ c)
theorem W1_arg2 (c : Dev nD) : W1 m ρ c (Proc.devRef .tc main_arg2) = m ((c : Thread nD τ).loc main_arg2) := seg0_arg2 (W0 m ρ c)
theorem W1_arg3 (c : Dev nD) : W1 m ρ c (Proc.devRef .tc main_arg3) = m ((c : Thread nD τ).loc main_arg3) := seg0_arg3 (W0 m ρ c)
theorem W1_arg4 (c : Dev nD) : W1 m ρ c (Proc.devRef .tc main_arg4) = m ((c : Thread nD τ).loc main_arg4) := seg0_arg4 (W0 m ρ c)
theorem W1_arg5 (c : Dev nD) : W1 m ρ c (Proc.devRef .tc main_arg5) = m ((c : Thread nD τ).loc main_arg5) := seg0_arg5 (W0 m ρ c)
theorem W1_src (c : Dev nD) : W1 m ρ c (Proc.devRef .tc main_v1) = Cert.Gcn.srcOf (m ((c : Thread nD τ).loc main_arg1)) := seg0_src (W0 m ρ c)
theorem W1_dst (c : Dev nD) : W1 m ρ c (Proc.devRef .tc main_v3) = Cert.Gcn.dstOf (m ((c : Thread nD τ).loc main_arg1)) := seg0_dst (W0 m ρ c)

/-- At the first region's exit: its result array holds the first product; the other buffers are as at its entry. -/
theorem W2_prod (c : Dev nD) : W2 m ρ c (Proc.devRef .tc main_v4)
    = Cert.Gcn.dense1 (m ((c : Thread nD τ).loc main_arg0)) (m ((c : Thread nD τ).loc main_arg2)) := by
  refine (W2_arr m ρ c 2).trans ((Cert.Gcn.Region0.final (V1 m ρ) c).trans ?_)
  show Cert.Gcn.dense1 (W1 m ρ c (Proc.devRef .tc main_arg0)) (W1 m ρ c (Proc.devRef .tc main_arg2)) = _
  rw [W1_arg0, W1_arg2]
theorem W2_src (c : Dev nD) : W2 m ρ c (Proc.devRef .tc main_v1) = Cert.Gcn.srcOf (m ((c : Thread nD τ).loc main_arg1)) :=
  (W2_of_ne m ρ c main_v1 (by decide)).trans (W1_src m ρ c)
theorem W2_dst (c : Dev nD) : W2 m ρ c (Proc.devRef .tc main_v3) = Cert.Gcn.dstOf (m ((c : Thread nD τ).loc main_arg1)) :=
  (W2_of_ne m ρ c main_v3 (by decide)).trans (W1_dst m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)

/-- The first layer's result, before the rectifier. -/
abbrev hidden (c : Dev nD) : (⟨S100000x64, .f32⟩ : BufTy).Contents (Elt Ideal) :=
  Cert.Gcn.layer (Cert.Gcn.dense1 (m ((c : Thread nD τ).loc main_arg0)) (m ((c : Thread nD τ).loc main_arg2)))
    (Cert.Gcn.srcOf (m ((c : Thread nD τ).loc main_arg1))) (Cert.Gcn.dstOf (m ((c : Thread nD τ).loc main_arg1)))
    (m ((c : Thread nD τ).loc main_arg3))

/-- At the second region's entry. -/
theorem W4_act (c : Dev nD) : W4 m ρ c (Proc.devRef .tc main_v44) = Cert.Gcn.relu (hidden m c) := by
  show after hostOps1_1 (after hostOps1 (W2 m ρ c)) (Proc.devRef .tc main_v44) = _
  rw [seg11_relu, seg1_layer, W2_prod, W2_src, W2_dst, W2_arg3]
theorem W4_src (c : Dev nD) : W4 m ρ c (Proc.devRef .tc main_v1) = Cert.Gcn.srcOf (m ((c : Thread nD τ).loc main_arg1)) := by
  show after hostOps1_1 (after hostOps1 (W2 m ρ c)) (Proc.devRef .tc main_v1) = _
  rw [seg11_v1, seg1_v1, W2_src]
theorem W4_dst (c : Dev nD) : W4 m ρ c (Proc.devRef .tc main_v3) = Cert.Gcn.dstOf (m ((c : Thread nD τ).loc main_arg1)) := by
  show after hostOps1_1 (after hostOps1 (W2 m ρ c)) (Proc.devRef .tc main_v3) = _
  rw [seg11_v3, seg1_v3, W2_dst]
theorem W4_arg4 (c : Dev nD) : W4 m ρ c (Proc.devRef .tc main_arg4) = m ((c : Thread nD τ).loc main_arg4) := by
  show after hostOps1_1 (after hostOps1 (W2 m ρ c)) (Proc.devRef .tc main_arg4) = _
  rw [seg11_arg4, seg1_arg4, W2_arg4]
theorem W4_arg5 (c : Dev nD) : W4 m ρ c (Proc.devRef .tc main_arg5) = m ((c : Thread nD τ).loc main_arg5) := by
  show after hostOps1_1 (after hostOps1 (W2 m ρ c)) (Proc.devRef .tc main_arg5) = _
  rw [seg11_arg5, seg1_arg5, W2_arg5]

/-- At the second region's exit: its result array holds the second product. -/
theorem W5_prod (c : Dev nD) : W5 m ρ c (Proc.devRef .tc main_v45)
    = Cert.Gcn.dense2 (Cert.Gcn.relu (hidden m c)) (m ((c : Thread nD τ).loc main_arg4)) := by
  refine (W5_arr m ρ c 2).trans ((Cert.Gcn.Region1.final (V4 m ρ) c).trans ?_)
  show Cert.Gcn.dense2 (W4 m ρ c (Proc.devRef .tc main_v44)) (W4 m ρ c (Proc.devRef .tc main_arg4)) = _
  rw [W4_act, W4_arg4]
theorem W5_src (c : Dev nD) : W5 m ρ c (Proc.devRef .tc main_v1) = Cert.Gcn.srcOf (m ((c : Thread nD τ).loc main_arg1)) :=
  (W5_of_ne m ρ c main_v1 (by decide)).trans (W4_src m ρ c)
theorem W5_dst (c : Dev nD) : W5 m ρ c (Proc.devRef .tc main_v3) = Cert.Gcn.dstOf (m ((c : Thread nD τ).loc main_arg1)) :=
  (W5_of_ne m ρ c main_v3 (by decide)).trans (W4_dst m ρ c)
theorem W5_arg5 (c : Dev nD) : W5 m ρ c (Proc.devRef .tc main_arg5) = m ((c : Thread nD τ).loc main_arg5) :=
  (W5_of_ne m ρ c main_arg5 (by decide)).trans (W4_arg5 m ρ c)

/-- The result buffer after the last stretch is the network of the arguments. -/
theorem result (c : Dev nD) : W6 m ρ c (Proc.devRef .tc main_v84)
    = Cert.Gcn.gcn (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  show after hostOps2 (W5 m ρ c) (Proc.devRef .tc main_v84) = _
  rw [seg2_layer, W5_prod, W5_src, W5_dst, W5_arg5]
  rfl

end Cert.Gcn.Fold

end
-- ==== Proof.Reference.lean ====
/-
  The reference program computes the network `Cert.Gcn.gcn` of its arguments.  Its host operations are, one for
  one, the layer's gathers, scatter-adds and broadcasts; its two `dot_general`s, read at an entry at the ideal
  values, are the sums `dense1` and `dense2`.
-/
import proofs.«150380_j34067680592104_1_alg».proof.Proof.Gen.ReferenceIdeal.Run
import proofs.«150380_j34067680592104_1_alg».proof.Proof.Gen.ReferenceIdeal.Read
import proofs.«150380_j34067680592104_1_alg».proof.Proof.Spec

noncomputable section

namespace Cert.Gcn.Ref

open Cert.ReferenceIdeal Cert.ReferenceIdeal.Gen Cert.ReferenceIdeal.Read Idealize.ShloMosaic Idealize.ShloMosaic.TcCoe Idealize.SL.Sem

variable (x0 : (⟨S100000x128, .f32⟩ : BufTy).Contents (Elt Ideal)) (x1 : (⟨S2x1600000, .i32⟩ : BufTy).Contents (Elt Ideal))
  (x2 : (⟨S128x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))

/-- The first product is `dense1`. -/
theorem v4_eq : val_main_v4 (F := Ideal) x0 x2 = Cert.Gcn.dense1 x0 x2 := by
  funext i
  rw [val_main_v4_apply]
  rfl

/-- The sources and destinations are the edge list's two rows. -/
theorem v1_eq : val_main_v1 (F := Ideal) x1 = Cert.Gcn.srcOf x1 := rfl
theorem v3_eq : val_main_v3 (F := Ideal) x1 = Cert.Gcn.dstOf x1 := rfl

/-- The first layer's result before the rectifier. -/
theorem v43_eq : val_main_v43 (F := Ideal) x0 x1 x2 x3
    = Cert.Gcn.layer (val_main_v4 (F := Ideal) x0 x2) (val_main_v1 (F := Ideal) x1) (val_main_v3 (F := Ideal) x1) x3 := rfl

/-- The rectifier. -/
theorem v44_eq : val_main_v44 (F := Ideal) x0 x1 x2 x3 = Cert.Gcn.relu (val_main_v43 (F := Ideal) x0 x1 x2 x3) := rfl

/-- The second product is `dense2`. -/
theorem v45_eq : val_main_v45 (F := Ideal) x0 x1 x2 x3 x4 = Cert.Gcn.dense2 (val_main_v44 (F := Ideal) x0 x1 x2 x3) x4 := by
  funext i
  rw [val_main_v45_apply]
  rfl

/-- The second layer's result. -/
theorem v84_eq : val_main_v84 (F := Ideal) x0 x1 x2 x3 x4 x5
    = Cert.Gcn.layer (val_main_v45 (F := Ideal) x0 x1 x2 x3 x4) (val_main_v1 (F := Ideal) x1) (val_main_v3 (F := Ideal) x1) x5 := rfl

/-- The reference's result is the network of its arguments. -/
theorem result_eq : val_main_v84 (F := Ideal) x0 x1 x2 x3 x4 x5 = Cert.Gcn.gcn x0 x1 x2 x3 x4 x5 := by
  unfold Cert.Gcn.gcn
  rw [v84_eq, v45_eq, v44_eq, v43_eq, v4_eq, v1_eq, v3_eq]

end Cert.Gcn.Ref

end
-- ==== Proof.lean ====
/-
  Two graph-convolution layers with a rectifier between them, computed two ways.

  The kernel program forms each layer's matrix product (node features times weight) in a pipelined kernel over
  ten row blocks of 10000 nodes, the operands narrowed to a shorter float format and the products accumulated
  from zero; the reference forms it with one whole `dot_general`.  Everything else — appending self loops,
  counting degrees by a scatter-add, `deg^(-1/2)`, gathering source rows, weighing them, adding them up at the
  destinations, the bias, the rectifier — is the same sequence of host operations in both programs.

  At the ideal values a change of float format is the identity and a matrix product's entry is the sum over the
  contraction index of the factors' products, whatever the tiling: the row blocks tile the result and the
  contraction axis is never split, so both products are entry by entry the same finite sum in the extended reals
  (`Cert.Gcn.dense1`, `dense2`) and no law beyond that is needed — in particular nothing about finiteness.  Both
  programs therefore end with `Cert.Gcn.gcn` of their arguments in the result buffer: the kernel program by
  walking its six segments (`Cert.Gcn.Fold.result` over the run that names the result buffer), the reference by
  reading its host operations one at a time (`Cert.Gcn.Ref.result_eq`).  The three frames are the generated frame
  theorems (the reference's is its run with the result dropped); the idealization rewrote no operation.
-/
import proofs.«150380_j34067680592104_1_alg».proof.Defs
import proofs.«150380_j34067680592104_1_alg».proof.Proof.Gen.Kernel
import proofs.«150380_j34067680592104_1_alg».proof.Proof.Gen.Kernel.Frame
import proofs.«150380_j34067680592104_1_alg».proof.Proof.Gen.KernelIdeal
import proofs.«150380_j34067680592104_1_alg».proof.Proof.Gen.KernelIdeal.Frame
import proofs.«150380_j34067680592104_1_alg».proof.Proof.Gen.ReferenceIdeal
import proofs.«150380_j34067680592104_1_alg».proof.Proof.Gen.ReferenceIdeal.Run
import proofs.«150380_j34067680592104_1_alg».proof.Proof.Gen.ReferenceIdeal.Read
import proofs.«150380_j34067680592104_1_alg».proof.Proof.Gen.Pre_finite_inputs
import proofs.«150380_j34067680592104_1_alg».proof.Proof.KernelRun
import proofs.«150380_j34067680592104_1_alg».proof.Proof.KernelValue
import proofs.«150380_j34067680592104_1_alg».proof.Proof.Reference
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the network `gcn` of the shared arguments in the result buffer. -/
theorem algebraic : Cert.algebraic_KernelIdeal_ReferenceIdeal := by
  intro m ρ m' ρ' _ hagree
  refine ⟨fun c => Cert.Gcn.gcn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.Gcn.Fold.result m ρ c), (h c).2⟩)
      (Cert.KernelIdeal.RunNamed.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5⟩ := hagree c
    rw [Cert.ReferenceIdeal.Read.val_main_v84_eq, Cert.Gcn.Ref.result_eq, h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
